-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x768 : Shape := ⟨3, ![2, 2048, 768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel

variable [Facts]

def fn {F : FTy → Type} [FloatOps F] (main_arg0 : FVec F S2x2048x768 .f32) (main_arg1 : FVec F S2x2048x768 .f32) (main_arg2 : FVec F S2x2048x768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S2x2048x768 .f32 := Host.absf main_arg1
  let main_cst_0 : FVec F S_ .f32 := constant S_ .f32 0x7F800000#32
  let main_v5 : FVec F S2x2048x768 .f32 := broadcastInDim S2x2048x768 ![] bcast_S_S2x2048x768 main_cst_0
  let main_v6 : IVec S2x2048x768 1 := cmpf .olt main_v4 main_v5
  let main_c_1 : IVec S_ 1 := constantI S_ 1 1#1
  let main_v7 : IVec S_ 1 := (fun x v => Host.reduce IntOp.andi x v reducesTo_S2x2048x768_S_d0_1_2 h_S_) main_v6 main_c_1
  let main_v8 : IVec S_ 1 := andi main_v3 main_v7
  let main_v9 : FVec F S2x2048x768 .f32 := Host.absf main_arg2
  let main_cst_2 : FVec F S_ .f32 := constant S_ .f32 0x7F800000#32
  let main_v10 : FVec F S2x2048x768 .f32 := broadcastInDim S2x2048x768 ![] bcast_S_S2x2048x768 main_cst_2
  let main_v11 : IVec S2x2048x768 1 := cmpf .olt main_v9 main_v10
  let main_c_3 : IVec S_ 1 := constantI S_ 1 1#1
  let main_v12 : IVec S_ 1 := (fun x v => Host.reduce IntOp.andi x v reducesTo_S2x2048x768_S_d0_1_2 h_S_) main_v11 main_c_3
  let main_v13 : IVec S_ 1 := andi main_v8 main_v12
  main_v13
-- ==== Kernel.lean ====
abbrev S2x2048x768 : Shape := ⟨3, ![2, 2048, 768]⟩
abbrev S1x512x768 : Shape := ⟨3, ![1, 512, 768]⟩
abbrev S1x2048x768 : Shape := ⟨3, ![1, 2048, 768]⟩
abbrev S512x768 : Shape := ⟨2, ![512, 768]⟩
abbrev S2048x768 : Shape := ⟨2, ![2048, 768]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x512x64 : Shape := ⟨3, ![1, 512, 64]⟩

abbrev nBuf : Space → Nat
  | .hbm => 4
  | .vmem => 8
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S2x2048x768, .f32⟩
  | .local _ .vmem, ⟨0, _⟩ => ⟨S1x512x768, .f32⟩
  | .local _ .vmem, ⟨1, _⟩ => ⟨S1x512x768, .f32⟩
  | .local _ .vmem, ⟨2, _⟩ => ⟨S1x2048x768, .f32⟩
  | .local _ .vmem, ⟨3, _⟩ => ⟨S1x2048x768, .f32⟩
  | .local _ .vmem, ⟨4, _⟩ => ⟨S1x2048x768, .f32⟩
  | .local _ .vmem, ⟨5, _⟩ => ⟨S1x2048x768, .f32⟩
  | .local _ .vmem, ⟨6, _⟩ => ⟨S1x512x768, .f32⟩
  | .local _ .vmem, ⟨7, _⟩ => ⟨S1x512x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  slices_S512x768_o0_0_S512x64 : S512x768.Slices ![0, 0] S512x64
  slices_S2048x768_o0_0_S2048x64 : S2048x768.Slices ![0, 0] S2048x64
  reduces_S512x2048_S512 : S512x2048.Reduces [1] S512
  shapeCasts_S512_S512x1 : S512.ShapeCasts S512x1
  broadcasts_S512x1_S512x2048 : S512x1.Broadcasts S512x2048
  inb_S1x512x768_S1x512x64_0_0_0 : ∀ a, (![0, 0, 0] : Fin 3 → Nat) a + S1x512x64.size a ≤ S1x512x768.size a
  h_S1x512x64 : 0 < S1x512x64.numel
  shapeCasts_S1x512x64_S512x64 : S1x512x64.ShapeCasts S512x64
  shapeCasts_S512x64_S1x512x64 : S512x64.ShapeCasts S1x512x64
  slices_S512x768_o0_64_S512x64 : S512x768.Slices ![0, 64] S512x64
  slices_S2048x768_o0_64_S2048x64 : S2048x768.Slices ![0, 64] S2048x64
  inb_S1x512x768_S1x512x64_0_0_64 : ∀ a, (![0, 0, 64] : Fin 3 → Nat) a + S1x512x64.size a ≤ S1x512x768.size a
  slices_S512x768_o0_128_S512x64 : S512x768.Slices ![0, 128] S512x64
  slices_S2048x768_o0_128_S2048x64 : S2048x768.Slices ![0, 128] S2048x64
  inb_S1x512x768_S1x512x64_0_0_128 : ∀ a, (![0, 0, 128] : Fin 3 → Nat) a + S1x512x64.size a ≤ S1x512x768.size a
  slices_S512x768_o0_192_S512x64 : S512x768.Slices ![0, 192] S512x64
  slices_S2048x768_o0_192_S2048x64 : S2048x768.Slices ![0, 192] S2048x64
  inb_S1x512x768_S1x512x64_0_0_192 : ∀ a, (![0, 0, 192] : Fin 3 → Nat) a + S1x512x64.size a ≤ S1x512x768.size a
  slices_S512x768_o0_256_S512x64 : S512x768.Slices ![0, 256] S512x64
  slices_S2048x768_o0_256_S2048x64 : S2048x768.Slices ![0, 256] S2048x64
  inb_S1x512x768_S1x512x64_0_0_256 : ∀ a, (![0, 0, 256] : Fin 3 → Nat) a + S1x512x64.size a ≤ S1x512x768.size a
  slices_S512x768_o0_320_S512x64 : S512x768.Slices ![0, 320] S512x64
  slices_S2048x768_o0_320_S2048x64 : S2048x768.Slices ![0, 320] S2048x64
  inb_S1x512x768_S1x512x64_0_0_320 : ∀ a, (![0, 0, 320] : Fin 3 → Nat) a + S1x512x64.size a ≤ S1x512x768.size a
  slices_S512x768_o0_384_S512x64 : S512x768.Slices ![0, 384] S512x64
  slices_S2048x768_o0_384_S2048x64 : S2048x768.Slices ![0, 384] S2048x64
  inb_S1x512x768_S1x512x64_0_0_384 : ∀ a, (![0, 0, 384] : Fin 3 → Nat) a + S1x512x64.size a ≤ S1x512x768.size a
  slices_S512x768_o0_448_S512x64 : S512x768.Slices ![0, 448] S512x64
  slices_S2048x768_o0_448_S2048x64 : S2048x768.Slices ![0, 448] S2048x64
  inb_S1x512x768_S1x512x64_0_0_448 : ∀ a, (![0, 0, 448] : Fin 3 → Nat) a + S1x512x64.size a ≤ S1x512x768.size a
  slices_S512x768_o0_512_S512x64 : S512x768.Slices ![0, 512] S512x64
  slices_S2048x768_o0_512_S2048x64 : S2048x768.Slices ![0, 512] S2048x64
  inb_S1x512x768_S1x512x64_0_0_512 : ∀ a, (![0, 0, 512] : Fin 3 → Nat) a + S1x512x64.size a ≤ S1x512x768.size a
  slices_S512x768_o0_576_S512x64 : S512x768.Slices ![0, 576] S512x64
  slices_S2048x768_o0_576_S2048x64 : S2048x768.Slices ![0, 576] S2048x64
  inb_S1x512x768_S1x512x64_0_0_576 : ∀ a, (![0, 0, 576] : Fin 3 → Nat) a + S1x512x64.size a ≤ S1x512x768.size a
  slices_S512x768_o0_640_S512x64 : S512x768.Slices ![0, 640] S512x64
  slices_S2048x768_o0_640_S2048x64 : S2048x768.Slices ![0, 640] S2048x64
  inb_S1x512x768_S1x512x64_0_0_640 : ∀ a, (![0, 0, 640] : Fin 3 → Nat) a + S1x512x64.size a ≤ S1x512x768.size a
  slices_S512x768_o0_704_S512x64 : S512x768.Slices ![0, 704] S512x64
  slices_S2048x768_o0_704_S2048x64 : S2048x768.Slices ![0, 704] S2048x64
  inb_S1x512x768_S1x512x64_0_0_704 : ∀ a, (![0, 0, 704] : Fin 3 → Nat) a + S1x512x64.size a ≤ S1x512x768.size a
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S2x2048x768.size a
  hwx0_0 : ∀ i : grid0.Coords, EltTy.bits .f32 = 32 ∨ (Rect.block (s := S2x2048x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x768.size a ≤ S2x2048x768.size a
  hwx0_1 : ∀ i : grid0.Coords, EltTy.bits .f32 = 32 ∨ (Rect.block (s := S2x2048x768) S1x2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x768.size a ≤ S2x2048x768.size a
  hwx0_2 : ∀ i : grid0.Coords, EltTy.bits .f32 = 32 ∨ (Rect.block (s := S2x2048x768) S1x2048x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x768.size a ≤ S2x2048x768.size a
  hwx0_3 : ∀ i : grid0.Coords, EltTy.bits .f32 = 32 ∨ (Rect.block (s := S2x2048x768) S1x512x768.size (cc0_transform_3 i) (hinb0_3 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x768 : Shape := ⟨3, ![2, 2048, 768]⟩
abbrev S2x2048x12x64 : Shape := ⟨4, ![2, 2048, 12, 64]⟩
abbrev S2x12x2048x64 : Shape := ⟨4, ![2, 12, 2048, 64]⟩
abbrev S2x12x2048x2048 : Shape := ⟨4, ![2, 12, 2048, 2048]⟩
abbrev S_ : Shape := ⟨0, ![]⟩
abbrev S2x12x2048 : Shape := ⟨3, ![2, 12, 2048]⟩
abbrev S2x12x2048x1 : Shape := ⟨4, ![2, 12, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S2x2048x12x64, .f32⟩
  | .hbm, ⟨4, _⟩ => ⟨S2x12x2048x64, .f32⟩
  | .hbm, ⟨5, _⟩ => ⟨S2x2048x12x64, .f32⟩
  | .hbm, ⟨6, _⟩ => ⟨S2x12x2048x64, .f32⟩
  | .hbm, ⟨7, _⟩ => ⟨S2x2048x12x64, .f32⟩
  | .hbm, ⟨8, _⟩ => ⟨S2x12x2048x64, .f32⟩
  | .hbm, ⟨9, _⟩ => ⟨S2x12x2048x2048, .f32⟩
  | .hbm, ⟨10, _⟩ => ⟨S_, .f32⟩
  | .hbm, ⟨11, _⟩ => ⟨S2x12x2048x2048, .f32⟩
  | .hbm, ⟨12, _⟩ => ⟨S2x12x2048x2048, .f32⟩
  | .hbm, ⟨13, _⟩ => ⟨S_, .f32⟩
  | .hbm, ⟨14, _⟩ => ⟨S2x12x2048, .f32⟩
  | .hbm, ⟨15, _⟩ => ⟨S_, .f32⟩
  | .hbm, ⟨16, _⟩ => ⟨S2x12x2048, .f32⟩
  | .hbm, ⟨17, _⟩ => ⟨S2x12x2048, .f32⟩
  | .hbm, ⟨18, _⟩ => ⟨S2x12x2048x1, .f32⟩
  | .hbm, ⟨19, _⟩ => ⟨S2x12x2048x2048, .f32⟩
  | .hbm, ⟨20, _⟩ => ⟨S2x12x2048x2048, .f32⟩
  | .hbm, ⟨21, _⟩ => ⟨S2x12x2048x2048, .f32⟩
  | .hbm, ⟨22, _⟩ => ⟨S_, .f32⟩
  | .hbm, ⟨23, _⟩ => ⟨S2x12x2048, .f32⟩
  | .hbm, ⟨24, _⟩ => ⟨S2x12x2048x1, .f32⟩
  | .hbm, ⟨25, _⟩ => ⟨S2x12x2048x2048, .f32⟩
  | .hbm, ⟨26, _⟩ => ⟨S2x12x2048x2048, .f32⟩
  | .hbm, ⟨27, _⟩ => ⟨S2x12x2048x64, .f32⟩
  | .hbm, ⟨28, _⟩ => ⟨S2x2048x12x64, .f32⟩
  | .hbm, ⟨29, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  shapeCasts_S2x2048x768_S2x2048x12x64 : S2x2048x768.ShapeCasts S2x2048x12x64
  transposes_S2x2048x12x64_S2x12x2048x64_0_2_1_3 : S2x2048x12x64.Transposes [0, 2, 1, 3] S2x12x2048x64
  bcast_S_S2x12x2048x2048 : S_.BroadcastsInDim S2x12x2048x2048 (![] : Fin 0 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  transposes_S2x12x2048x64_S2x2048x12x64_0_2_1_3 : S2x12x2048x64.Transposes [0, 2, 1, 3] S2x2048x12x64
  shapeCasts_S2x2048x12x64_S2x2048x768 : S2x2048x12x64.ShapeCasts S2x2048x768
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.Attention.lean ====
/-
  Multi-head softmax attention over f32[2, 2048, 768], as one function of the three argument arrays,
  index by index, on the extended reals.

  A feature column `c < 768` belongs to head `c / 64`, whose 64 columns are `c / 64 * 64 + d`, `d < 64`.
  For batch `b`, query row `s` and column `c` the result is

      ∑ t, w t * v[b, t, c],   w t = exp (σ t - M) / ∑ t', exp (σ t' - M),
      σ t = (∑ d, q[b, s, h·64 + d] * k[b, t, h·64 + d]) * (1/8),   M = max over t of σ t (from -∞),

  with `h = c / 64`. The one-head part is stated over the head's query row, its key rows and the value
  column alone (`attend`), so that a program that works on a head's 64-column slice and one that works
  on a [batch, head, row, column] rearrangement are both instances of it.
-/
import Idealize.ShloMosaic.PureOps.Ideal
import Idealize.ShloMosaic.Lib.ValueIdx

noncomputable section

namespace Cert.Attention

open Idealize.ShloMosaic Idealize.ShloMosaic.ValueIdx

/-- The arrays' shape: [batch, row, feature column]. -/
abbrev Arr : Shape := ⟨3, ![2, 2048, 768]⟩

/-- The scaled score of a query row against key row `t`: their inner product over the head's 64 columns,
    times the scale word (the f32 pattern of 1/8). -/
def score (qr : Fin 64 → EReal) (kr : Fin 2048 → Fin 64 → EReal) (t : Fin 2048) : EReal :=
  (∑ d : Fin 64, qr d * kr t d) * Ideal.ofBits .f32 0x3E000000#32

/-- A score row's maximum, folded from the pattern of -∞. -/
def rowMax (σ : Fin 2048 → EReal) : EReal :=
  (Finset.univ : Finset (Fin 2048)).fold max (Ideal.ofBits .f32 0xFF800000#32) σ

/-- The shifted exponential of score `t`. -/
def expo (σ : Fin 2048 → EReal) (t : Fin 2048) : EReal := Ideal.exp (σ t - rowMax σ)

/-- The softmax weight of key row `t`: its shifted exponential over the row's sum of them. -/
def weight (σ : Fin 2048 → EReal) (t : Fin 2048) : EReal := Ideal.div (expo σ t) (∑ t' : Fin 2048, expo σ t')

/-- One head at one query row and one value column: the weights' combination of the value column. -/
def attend (qr : Fin 64 → EReal) (kr : Fin 2048 → Fin 64 → EReal) (vc : Fin 2048 → EReal) : EReal :=
  ∑ t : Fin 2048, weight (score qr kr) t * vc t

/-- Column `d` of the head that feature column `c` belongs to. -/
def headCol (c : Fin 768) (d : Fin 64) : Fin 768 := ⟨c.val / 64 * 64 + d.val, by have := c.isLt; have := d.isLt; omega⟩

/-- The attention output as one function of the argument arrays. -/
def out (q k v : Arr.Idx → EReal) (i : Arr.Idx) : EReal :=
  attend (fun d => q (ix3 (i 0) (i 1) (headCol (i 2) d)))
    (fun t d => k (ix3 (i 0) t (headCol (i 2) d)))
    (fun t => v (ix3 (i 0) t (i 2)))

end Cert.Attention

end
-- ==== Proof.KernelHead.lean ====
/-
  One attention head inside a grid point's body, read at an index on the extended reals.

  At a grid point the body holds a [512, 768] block of query rows and the whole [2048, 768] key and value
  arrays of one batch element. For each of the 12 heads it takes the head's 64 columns of the three,
  forms the [512, 2048] scores (query rows against key rows, times 1/8), subtracts each row's maximum,
  exponentiates, divides by each row's sum, and combines the value rows with those weights into a
  [512, 64] piece. Here that chain is one function `head` of the three 64-column slices, and `head_apply`
  says that its entry (r, d) is the specification's one-head function of query row r, the key rows and
  column d of the value slice: the two matrix products are sums over the contracted coordinate, the row
  maximum is the fold of max over the row, the row sum is the sum over the row, and the two row statistics
  are read back along the row they were taken from.
-/
import proofs.«166572_g74105365725242_cont_9to1_m_705_2_alg».proof.Proof.Gen.KernelIdeal.Frame
import proofs.«166572_g74105365725242_cont_9to1_m_705_2_alg».proof.Proof.Attention
import Idealize.ShloMosaic.Lib.Pipeline.Value
import Idealize.ShloMosaic.Lib.ValueLayout
import Idealize.ShloMosaic.PureOps.Ideal.Laws

noncomputable section

namespace Cert.KernelHead

open Cert.KernelIdeal Cert.KernelIdeal.Gen Idealize.ShloMosaic Idealize.ShloMosaic.ValueIdx

/-! ## The head's chain of operations, at any float instance -/

variable {F : FTy → Type} [FloatOps F]

/-- A head's scaled scores: the query rows against the key rows over the head's 64 columns, times the scale word. -/
def scores (qh : FVec F S512x64 .f32) (kh : FVec F S2048x64 .f32) : FVec F S512x2048 .f32 :=
  mulf (matmul dot_S512x64_S2048x64_S512x2048_1_1_0_0_n_n none qh kh (constant S512x2048 .f32 0x00000000#32))
    (broadcast S512x2048 (Scalar.ofBits .f32 0x3E000000#32))

/-- The exponential of each score less its row's maximum. -/
def shifted (σ : FVec F S512x2048 .f32) : FVec F S512x2048 .f32 :=
  exp (subf σ (broadcastTo S512x2048 (shapeCast S512x1 (multiReduction .maximumf [1] S512 σ 0xFF800000#32 reduces_S512x2048_S512 (.inl rfl) rfl) shapeCasts_S512_S512x1) broadcasts_S512x1_S512x2048))

/-- Each entry over its row's sum. -/
def normed (e : FVec F S512x2048 .f32) : FVec F S512x2048 .f32 :=
  divf e (broadcastTo S512x2048 (shapeCast S512x1 (multiReduction .add [1] S512 e 0x00000000#32 reduces_S512x2048_S512 (.inl rfl) rfl) shapeCasts_S512_S512x1) broadcasts_S512x1_S512x2048)

/-- The weights' combination of the value rows, laid out as the [1, 512, 64] piece the body stores. -/
def mix (p : FVec F S512x2048 .f32) (vh : FVec F S2048x64 .f32) : FVec F S1x512x64 .f32 :=
  shapeCast S1x512x64 (matmul dot_S512x2048_S2048x64_S512x64_1_0_0_1_n_n none p vh (constant S512x64 .f32 0x00000000#32)) shapeCasts_S512x64_S1x512x64

/-- One head, from its 64-column slices of the query block and of the key and value blocks. -/
def head (qh : FVec F S512x64 .f32) (kh vh : FVec F S2048x64 .f32) : FVec F S1x512x64 .f32 :=
  mix (normed (shifted (scores qh kh))) vh

/-! ## Row statistics read at an index -/

/-- A row statistic kept as a column and broadcast along the row reads, at (r, t), the statistic of row r. -/
theorem rowStat_apply {α : Type} (v : S512.Idx → α) (r : Fin 512) (t : Fin 2048) :
    broadcastTo S512x2048 (shapeCast S512x1 v shapeCasts_S512_S512x1) broadcasts_S512x1_S512x2048 (ix2 r t) = v (ix1 r) := by
  refine (broadcastTo_apply _ broadcasts_S512x1_S512x2048 (ix2 r t) (ix2 r (0 : Fin 1)) (fun a => ?_)).trans ?_
  · match a with
    | ⟨0, _⟩ => show r.val = if (512 : Nat) = 1 then 0 else r.val; rw [if_neg (by decide)]
    | ⟨1, _⟩ => show (0 : Nat) = if (1 : Nat) = 1 then 0 else t.val; rw [if_pos rfl]
  · exact shapeCast_apply v shapeCasts_S512_S512x1 _ (ix1 r) (by
      rw [Shape.rowMajor_val_one, Shape.rowMajor_val_two]; show r.val = r.val * 1 + 0; omega)

/-- The index a row reduction inserts coordinate t into is (r, t). -/
theorem lift_row (r : Fin 512) (t : Fin 2048) :
    reduces_S512x2048_S512.lift (ix1 r) t = ix2 r t :=
  funext fun a => Fin.ext (by match a with | ⟨0, _⟩ => rfl | ⟨1, _⟩ => rfl)

/-- A row's sum is the sum over its 2048 entries. -/
theorem rowSum_apply (e : FVec Ideal S512x2048 .f32) (r : Fin 512) :
    multiReduction .add [1] S512 e 0x00000000#32 reduces_S512x2048_S512 (.inl rfl) rfl (ix1 r) = ∑ t : Fin 2048, e (ix2 r t) :=
  (Ideal.multiReduction_add_single e 0x00000000#32 reduces_S512x2048_S512 (.inl rfl) rfl (ix1 r)).trans
    (Finset.sum_congr rfl fun t _ => congrArg e (lift_row r t))

/-- A row's maximum is the fold of max over its 2048 entries from the -∞ pattern. -/
theorem rowMax_apply (σ : FVec Ideal S512x2048 .f32) (r : Fin 512) :
    multiReduction .maximumf [1] S512 σ 0xFF800000#32 reduces_S512x2048_S512 (.inl rfl) rfl (ix1 r)
      = Cert.Attention.rowMax (fun t => σ (ix2 r t)) :=
  (Ideal.multiReduction_maximumf_single σ 0xFF800000#32 reduces_S512x2048_S512 (.inl rfl) rfl (ix1 r)).trans
    (congrArg (Finset.fold max (Ideal.ofBits .f32 0xFF800000#32) · Finset.univ) (funext fun t => congrArg σ (lift_row r t)))

/-! ## The two matrix products read at an index -/

/-! The score product contracts the two operands' column axes: at (r, t) and contraction index k it reads
    the query slice at (r, k) and the key slice at (t, k). -/
theorem qk_lhs_0 (j : S512x2048.Idx) (q : dot_S512x64_S2048x64_S512x2048_1_1_0_0_n_n.contr.Idx) :
    (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs_1 (j : S512x2048.Idx) (q : dot_S512x64_S2048x64_S512x2048_1_1_0_0_n_n.contr.Idx) :
    (dot_S512x64_S2048x64_S512x2048_1_1_0_0_n_n.lhsIdx j q 1).val = (q ⟨0, by decide⟩).val :=
  dot_S512x64_S2048x64_S512x2048_1_1_0_0_n_n.lhsIdx_val_of_single rfl j q
theorem qk_rhs_0 (j : S512x2048.Idx) (q : dot_S512x64_S2048x64_S512x2048_1_1_0_0_n_n.contr.Idx) :
    (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs_1 (j : S512x2048.Idx) (q : dot_S512x64_S2048x64_S512x2048_1_1_0_0_n_n.contr.Idx) :
    (dot_S512x64_S2048x64_S512x2048_1_1_0_0_n_n.rhsIdx j q 1).val = (q ⟨0, by decide⟩).val :=
  dot_S512x64_S2048x64_S512x2048_1_1_0_0_n_n.rhsIdx_val_of_single rfl j q

/-- The score product at (r, t): the inner product of query row r and key row t over the 64 columns. -/
theorem qk_apply (qh : FVec Ideal S512x64 .f32) (kh : FVec Ideal S2048x64 .f32) (r : Fin 512) (t : Fin 2048) :
    matmul dot_S512x64_S2048x64_S512x2048_1_1_0_0_n_n none qh kh (constant S512x2048 .f32 0x00000000#32) (ix2 r t)
      = ∑ d : Fin 64, qh (ix2 r d) * kh (ix2 t d) := by
  refine (Ideal.matmul_constant_zero_apply dot_S512x64_S2048x64_S512x2048_1_1_0_0_n_n none qh kh (ix2 r t)).trans ?_
  rw [← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r t) ((contrEquiv1 dot_S512x64_S2048x64_S512x2048_1_1_0_0_n_n 64 rfl rfl).symm k) = ix2 r k := funext fun a => Fin.ext (by
    match a with
    | ⟨0, _⟩ => exact qk_lhs_0 _ _
    | ⟨1, _⟩ => exact (qk_lhs_1 _ _).trans hk)
  have er : dot_S512x64_S2048x64_S512x2048_1_1_0_0_n_n.rhsIdx (ix2 r t) ((contrEquiv1 dot_S512x64_S2048x64_S512x2048_1_1_0_0_n_n 64 rfl rfl).symm k) = ix2 t k := funext fun a => Fin.ext (by
    match a with
    | ⟨0, _⟩ => exact qk_rhs_0 _ _
    | ⟨1, _⟩ => exact (qk_rhs_1 _ _).trans hk)
  rw [el, er]

/-! The mixing product contracts the weights' column axis with the value slice's row axis: at (r, d) and
    contraction index k it reads the weights at (r, k) and the value slice at (k, d). -/
theorem pv_lhs_0 (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs_1 (j : S512x64.Idx) (q : dot_S512x2048_S2048x64_S512x64_1_0_0_1_n_n.contr.Idx) :
    (dot_S512x2048_S2048x64_S512x64_1_0_0_1_n_n.lhsIdx j q 1).val = (q ⟨0, by decide⟩).val :=
  dot_S512x2048_S2048x64_S512x64_1_0_0_1_n_n.lhsIdx_val_of_single rfl j q
theorem pv_rhs_0 (j : S512x64.Idx) (q : dot_S512x2048_S2048x64_S512x64_1_0_0_1_n_n.contr.Idx) :
    (dot_S512x2048_S2048x64_S512x64_1_0_0_1_n_n.rhsIdx j q 0).val = (q ⟨0, by decide⟩).val :=
  dot_S512x2048_S2048x64_S512x64_1_0_0_1_n_n.rhsIdx_val_of_single rfl j q
theorem pv_rhs_1 (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The mixing product at (r, d): the weights of row r against column d of the value slice. -/
theorem pv_apply (p : FVec Ideal S512x2048 .f32) (vh : FVec Ideal S2048x64 .f32) (r : Fin 512) (d : Fin 64) :
    matmul dot_S512x2048_S2048x64_S512x64_1_0_0_1_n_n none p vh (constant S512x64 .f32 0x00000000#32) (ix2 r d)
      = ∑ t : Fin 2048, p (ix2 r t) * vh (ix2 t d) := by
  refine (Ideal.matmul_constant_zero_apply dot_S512x2048_S2048x64_S512x64_1_0_0_1_n_n none p vh (ix2 r d)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun a => Fin.ext (by
    match a with
    | ⟨0, _⟩ => exact pv_lhs_0 _ _
    | ⟨1, _⟩ => exact (pv_lhs_1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun a => Fin.ext (by
    match a with
    | ⟨0, _⟩ => exact (pv_rhs_0 _ _).trans hk
    | ⟨1, _⟩ => exact pv_rhs_1 _ _)
  rw [el, er]

/-! ## The head read at an index -/

/-- The scores at (r, t) are the specification's score of query row r against key row t. -/
theorem scores_apply (qh : FVec Ideal S512x64 .f32) (kh : FVec Ideal S2048x64 .f32) (r : Fin 512) (t : Fin 2048) :
    scores qh kh (ix2 r t) = Cert.Attention.score (fun d => qh (ix2 r d)) (fun t d => kh (ix2 t d)) t :=
  congrArg (· * Ideal.ofBits .f32 0x3E000000#32) (qk_apply qh kh r t)

/-- The shifted exponential at (r, t), over row r of the scores. -/
theorem shifted_apply (σ : FVec Ideal S512x2048 .f32) (r : Fin 512) (t : Fin 2048) :
    shifted σ (ix2 r t) = Cert.Attention.expo (fun t => σ (ix2 r t)) t :=
  congrArg (fun m => Ideal.exp (σ (ix2 r t) - m)) ((rowStat_apply _ r t).trans (rowMax_apply σ r))

/-- An entry over its row's sum. -/
theorem normed_apply (e : FVec Ideal S512x2048 .f32) (r : Fin 512) (t : Fin 2048) :
    normed e (ix2 r t) = Ideal.div (e (ix2 r t)) (∑ t' : Fin 2048, e (ix2 r t')) :=
  congrArg (Ideal.div (e (ix2 r t))) ((rowStat_apply _ r t).trans (rowSum_apply e r))

/-- One head at (r, d) of its piece: the specification's one-head function of query row r, the key rows
    and column d of the value slice. -/
theorem head_apply (qh : FVec Ideal S512x64 .f32) (kh vh : FVec Ideal S2048x64 .f32) (u : Fin 1) (r : Fin 512) (d : Fin 64) :
    head qh kh vh (ix3 u r d)
      = Cert.Attention.attend (fun d' => qh (ix2 r d')) (fun t d' => kh (ix2 t d')) (fun t => vh (ix2 t d)) := by
  unfold head mix
  refine (shapeCast_ab_1ab_apply _ shapeCasts_S512x64_S1x512x64 u r d).trans ?_
  refine (pv_apply _ vh r d).trans ?_
  unfold Cert.Attention.attend Cert.Attention.weight
  have hs : ∀ t' : Fin 2048, shifted (scores qh kh) (ix2 r t')
      = Cert.Attention.expo (Cert.Attention.score (fun d' => qh (ix2 r d')) (fun t d' => kh (ix2 t d'))) t' := fun t' =>
    (shifted_apply _ r t').trans (congrArg (Cert.Attention.expo · t') (funext fun t'' => scores_apply qh kh r t''))
  refine Finset.sum_congr rfl fun t _ => congrArg (· * vh (ix2 t d)) ?_
  refine (normed_apply _ r t).trans ?_
  rw [hs t]
  exact congrArg _ (Finset.sum_congr rfl fun t' _ => hs t')

end Cert.KernelHead

end
-- ==== Proof.KernelBlock.lean ====
/-
  What a grid point's body leaves in its [1, 512, 768] output block, as one function of the block index.

  The body stores twelve [1, 512, 64] pieces side by side along the column axis, piece h at columns
  64·h … 64·h + 63, and piece h is head h of the three loaded blocks. So the block at (0, r, c) is the
  specification's one-head function of row r of the query block, the key block's rows and column c of the
  value block, taken over the 64 columns of the head that c belongs to (c / 64).
-/
import proofs.«166572_g74105365725242_cont_9to1_m_705_2_alg».proof.Proof.KernelHead

noncomputable section

namespace Cert.KernelBlock

open Cert.KernelIdeal Cert.KernelIdeal.Gen Cert.KernelHead Idealize.ShloMosaic Idealize.ShloMosaic.ValueIdx

variable {F : FTy → Type} [FloatOps F]

/-- The head whose 64 columns start at column o, from the three loaded blocks: the blocks' unit axis
    dropped, the three 64-column slices, the head. -/
def headAt (o : Nat) (hq : S512x768.Slices ![0, o] S512x64) (hk : S2048x768.Slices ![0, o] S2048x64)
    (x0 : Vec F S1x512x768 .f32) (x1 x2 : Vec F S1x2048x768 .f32) : FVec F S1x512x64 .f32 :=
  head (extractStridedSlice S512x64 ![0, o] (k0_pay3 x0) hq) (extractStridedSlice S2048x64 ![0, o] (k0_pay4 x1) hk)
    (extractStridedSlice S2048x64 ![0, o] (k0_pay5 x2) hk)

/-! ## The twelve stored pieces are the twelve heads

The printed body is cut into consecutive windows by statement count, so the value a store writes is named
through a different nesting of intermediate values from head to head; each nesting unfolds to the same
chain at the head's column offset. -/

theorem piece0_eq (x0 : Vec F S1x512x768 .f32) (x1 x2 : Vec F S1x2048x768 .f32) :
    k0_pay6 x0 x1 x2 = headAt 0 slices_S512x768_o0_0_S512x64 slices_S2048x768_o0_0_S2048x64 x0 x1 x2 := rfl

theorem piece1_eq (x0 : Vec F S1x512x768 .f32) (x1 x2 : Vec F S1x2048x768 .f32) :
    k0_pay9 (k0_pay7 x2) (k0_pay8 x0 x1)
      = headAt 64 slices_S512x768_o0_64_S512x64 slices_S2048x768_o0_64_S2048x64 x0 x1 x2 := rfl

theorem piece2_eq (x0 : Vec F S1x512x768 .f32) (x1 x2 : Vec F S1x2048x768 .f32) :
    k0_pay10 (k0_pay3 x0) (k0_pay4 x1) (k0_pay5 x2)
      = headAt 128 slices_S512x768_o0_128_S512x64 slices_S2048x768_o0_128_S2048x64 x0 x1 x2 := rfl

theorem piece3_eq (x0 : Vec F S1x512x768 .f32) (x1 x2 : Vec F S1x2048x768 .f32) :
    k0_pay13 (k0_pay11 (k0_pay5 x2)) (k0_pay12 (k0_pay3 x0) (k0_pay4 x1))
      = headAt 192 slices_S512x768_o0_192_S512x64 slices_S2048x768_o0_192_S2048x64 x0 x1 x2 := rfl

theorem piece4_eq (x0 : Vec F S1x512x768 .f32) (x1 x2 : Vec F S1x2048x768 .f32) :
    k0_pay14 (k0_pay3 x0) (k0_pay4 x1) (k0_pay5 x2)
      = headAt 256 slices_S512x768_o0_256_S512x64 slices_S2048x768_o0_256_S2048x64 x0 x1 x2 := rfl

theorem piece5_eq (x0 : Vec F S1x512x768 .f32) (x1 x2 : Vec F S1x2048x768 .f32) :
    k0_pay16 (k0_pay15 (k0_pay3 x0) (k0_pay4 x1) (k0_pay5 x2))
      = headAt 320 slices_S512x768_o0_320_S512x64 slices_S2048x768_o0_320_S2048x64 x0 x1 x2 := rfl

theorem piece6_eq (x0 : Vec F S1x512x768 .f32) (x1 x2 : Vec F S1x2048x768 .f32) :
    k0_pay17 (k0_pay3 x0) (k0_pay4 x1) (k0_pay5 x2)
      = headAt 384 slices_S512x768_o0_384_S512x64 slices_S2048x768_o0_384_S2048x64 x0 x1 x2 := rfl

theorem piece7_eq (x0 : Vec F S1x512x768 .f32) (x1 x2 : Vec F S1x2048x768 .f32) :
    k0_pay18 (k0_pay3 x0) (k0_pay4 x1) (k0_pay5 x2)
      = headAt 448 slices_S512x768_o0_448_S512x64 slices_S2048x768_o0_448_S2048x64 x0 x1 x2 := rfl

theorem piece8_eq (x0 : Vec F S1x512x768 .f32) (x1 x2 : Vec F S1x2048x768 .f32) :
    k0_pay19 (k0_pay3 x0) (k0_pay4 x1) (k0_pay5 x2)
      = headAt 512 slices_S512x768_o0_512_S512x64 slices_S2048x768_o0_512_S2048x64 x0 x1 x2 := rfl

theorem piece9_eq (x0 : Vec F S1x512x768 .f32) (x1 x2 : Vec F S1x2048x768 .f32) :
    k0_pay20 (k0_pay3 x0) (k0_pay4 x1) (k0_pay5 x2)
      = headAt 576 slices_S512x768_o0_576_S512x64 slices_S2048x768_o0_576_S2048x64 x0 x1 x2 := rfl

theorem piece10_eq (x0 : Vec F S1x512x768 .f32) (x1 x2 : Vec F S1x2048x768 .f32) :
    k0_pay1 (k0_pay21 (k0_pay3 x0)) (k0_pay22 (k0_pay4 x1)) (k0_pay23 (k0_pay5 x2))
      = headAt 640 slices_S512x768_o0_640_S512x64 slices_S2048x768_o0_640_S2048x64 x0 x1 x2 := rfl

theorem piece11_eq (x0 : Vec F S1x512x768 .f32) (x1 x2 : Vec F S1x2048x768 .f32) :
    k0_pay2 (k0_pay3 x0) (k0_pay4 x1) (k0_pay5 x2)
      = headAt 704 slices_S512x768_o0_704_S512x64 slices_S2048x768_o0_704_S2048x64 x0 x1 x2 := rfl

/-! ## The output block as one function of the block index -/

/-- The output block at (0, r, c): the specification's one-head function of row r of the query block, the
    key block's rows and column c of the value block, over the 64 columns of the head c belongs to. -/
def blockOut (x0 : Vec Ideal S1x512x768 .f32) (x1 x2 : Vec Ideal S1x2048x768 .f32) (y : S1x512x768.Idx) : EReal :=
  Cert.Attention.attend (fun d => x0 (ix3 (0 : Fin 1) (y 1) (Cert.Attention.headCol (y 2) d)))
    (fun t d => x1 (ix3 (0 : Fin 1) t (Cert.Attention.headCol (y 2) d)))
    (fun t => x2 (ix3 (0 : Fin 1) t (y 2)))

/-- The piece of the head at column offset o (a multiple of 64), at its local index x, is blockOut at the
    block index y under it: row x₁, column o + x₂. A column o + x₂ with x₂ < 64 belongs to head o / 64, whose
    columns are o + d. -/
theorem headAt_apply (o : Nat) (ho : o % 64 = 0) (hq : S512x768.Slices ![0, o] S512x64) (hk : S2048x768.Slices ![0, o] S2048x64)
    (x0 : Vec Ideal S1x512x768 .f32) (x1 x2 : Vec Ideal S1x2048x768 .f32) (x : S1x512x64.Idx) (y : S1x512x768.Idx)
    (hy1 : (y 1).val = 0 + 1 * (x 1).val) (hy2 : (y 2).val = o + 1 * (x 2).val) :
    headAt o hq hk x0 x1 x2 x = blockOut x0 x1 x2 y := by
  have hx : x = ix3 (x 0) (x 1) (x 2) := eq_ix3 x
  have hx1 : (x 1).val < 512 := (x 1).isLt
  have hx2 : (x 2).val < 64 := (x 2).isLt
  have hY2 : (y 2).val < 768 := (y 2).isLt
  have hr : y 1 = x 1 := Fin.ext (by omega)
  rw [hx]
  unfold headAt blockOut
  refine (head_apply _ _ _ (x 0) (x 1) (x 2)).trans ?_
  have eq0 : (fun d' : Fin 64 => extractStridedSlice S512x64 ![0, o] (k0_pay3 x0) hq (ix2 (x 1) d'))
      = fun d => x0 (ix3 (0 : Fin 1) (y 1) (Cert.Attention.headCol (y 2) d)) := funext fun d' => by
    have hd : d'.val < 64 := d'.isLt
    refine (slice2_axis1_apply o (k0_pay3 x0) hq (x 1) d' (Cert.Attention.headCol (y 2) d') (by
      show (y 2).val / 64 * 64 + d'.val = o + d'.val; omega)).trans ?_
    rw [hr]
    exact shapeCast_1ab_ab_apply x0 shapeCasts_S1x512x768_S512x768 (x 1) _
  have eq1 : (fun (t : Fin 2048) (d' : Fin 64) => extractStridedSlice S2048x64 ![0, o] (k0_pay4 x1) hk (ix2 t d'))
      = fun t d => x1 (ix3 (0 : Fin 1) t (Cert.Attention.headCol (y 2) d)) := funext fun t => funext fun d' => by
    have hd : d'.val < 64 := d'.isLt
    refine (slice2_axis1_apply o (k0_pay4 x1) hk t d' (Cert.Attention.headCol (y 2) d') (by
      show (y 2).val / 64 * 64 + d'.val = o + d'.val; omega)).trans ?_
    exact shapeCast_1ab_ab_apply x1 shapeCasts_S1x2048x768_S2048x768 t _
  have eq2 : (fun t : Fin 2048 => extractStridedSlice S2048x64 ![0, o] (k0_pay5 x2) hk (ix2 t (x 2)))
      = fun t => x2 (ix3 (0 : Fin 1) t (y 2)) := funext fun t => by
    refine (slice2_axis1_apply o (k0_pay5 x2) hk t (x 2) (y 2) (by omega)).trans ?_
    exact shapeCast_1ab_ab_apply x2 shapeCasts_S1x2048x768_S2048x768 t _
  rw [eq0, eq1, eq2]

end Cert.KernelBlock

end
-- ==== Proof.KernelArray.lean ====
/-
  The kernel's result array after the run is the attention function of its three argument arrays.

  Grid point t = (batch b, row block i) loads rows 512·i … 512·i + 511 of batch b of the queries and all of
  batch b of the keys and values, and writes back the [1, 512, 768] block at (b, i, 0) of the result. The
  body's twelve stores tile that block, each holding its head, so the block is one function of its index
  (the canon of the pieces); an entry of the block sits in the array at row 512·i + r and the same column,
  where the attention function reads exactly the rows and columns the body read from its loaded blocks.
  The eight blocks tile the array, so the array ends holding the attention function everywhere.
-/
import proofs.«166572_g74105365725242_cont_9to1_m_705_2_alg».proof.Proof.KernelBlock
import proofs.«166572_g74105365725242_cont_9to1_m_705_2_alg».proof.Proof.Gen.KernelIdeal.Value

noncomputable section

namespace Cert.KernelArray

open Cert.KernelIdeal Cert.KernelIdeal.Gen Cert.KernelBlock Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The twelve pieces, assembled -/

theorem zeros3 : (![0, 0, 0] : Fin 3 → Nat) = fun _ => 0 := funext fun a => by fin_cases a <;> rfl

/-- What the body leaves in the output block is blockOut of the three loaded blocks: every piece is its head
    read under the piece's rectangle, and the pieces cover the block. -/
theorem out_block (x0 : Vec Ideal S1x512x768 .f32) (x1 x2 : Vec Ideal S1x2048x768 .f32) :
    out0_3 x0 x1 x2 = blockOut x0 x1 x2 := by
  funext y
  unfold out0_3
  simp only [View.ld_unit_zero (S := S1x512x768) zeros3, View.ld_unit_zero (S := S1x2048x768) zeros3]
  refine View.canon_apply_of_pieces (Val := Elt Ideal) (blockOut x0 x1 x2) _ ?_ y (cover0_3 _ _ _ _ _ _ _ _ _ _ _ _ y)
  intro p hp
  simp only [List.mem_cons, List.not_mem_nil, or_false] at hp
  rcases hp with rfl | rfl | rfl | rfl | rfl | rfl | rfl | rfl | rfl | rfl | rfl | rfl
  · intro x; exact (congrFun (piece11_eq x0 x1 x2) x).trans (headAt_apply 704 (by decide) _ _ x0 x1 x2 x _ rfl rfl)
  · intro x; exact (congrFun (piece10_eq x0 x1 x2) x).trans (headAt_apply 640 (by decide) _ _ x0 x1 x2 x _ rfl rfl)
  · intro x; exact (congrFun (piece9_eq x0 x1 x2) x).trans (headAt_apply 576 (by decide) _ _ x0 x1 x2 x _ rfl rfl)
  · intro x; exact (congrFun (piece8_eq x0 x1 x2) x).trans (headAt_apply 512 (by decide) _ _ x0 x1 x2 x _ rfl rfl)
  · intro x; exact (congrFun (piece7_eq x0 x1 x2) x).trans (headAt_apply 448 (by decide) _ _ x0 x1 x2 x _ rfl rfl)
  · intro x; exact (congrFun (piece6_eq x0 x1 x2) x).trans (headAt_apply 384 (by decide) _ _ x0 x1 x2 x _ rfl rfl)
  · intro x; exact (congrFun (piece5_eq x0 x1 x2) x).trans (headAt_apply 320 (by decide) _ _ x0 x1 x2 x _ rfl rfl)
  · intro x; exact (congrFun (piece4_eq x0 x1 x2) x).trans (headAt_apply 256 (by decide) _ _ x0 x1 x2 x _ rfl rfl)
  · intro x; exact (congrFun (piece3_eq x0 x1 x2) x).trans (headAt_apply 192 (by decide) _ _ x0 x1 x2 x _ rfl rfl)
  · intro x; exact (congrFun (piece2_eq x0 x1 x2) x).trans (headAt_apply 128 (by decide) _ _ x0 x1 x2 x _ rfl rfl)
  · intro x; exact (congrFun (piece1_eq x0 x1 x2) x).trans (headAt_apply 64 (by decide) _ _ x0 x1 x2 x _ rfl rfl)
  · intro x; exact (congrFun (piece0_eq x0 x1 x2) x).trans (headAt_apply 0 (by decide) _ _ x0 x1 x2 x _ rfl rfl)

/-! ## From a block to the array -/

/-- blockOut at block index j is the attention function at array index i, when the query block's row j₁ is
    the array's row i₁ of batch i₀, the key and value blocks are batch i₀, and the column is the same. -/
theorem blockOut_eq_out (q k v : Cert.Attention.Arr.Idx → EReal)
    (x0 : Vec Ideal S1x512x768 .f32) (x1 x2 : Vec Ideal S1x2048x768 .f32) (j : S1x512x768.Idx) (i : Cert.Attention.Arr.Idx)
    (hq : ∀ c' : Fin 768, x0 (ix3 (0 : Fin 1) (j 1) c') = q (ix3 (i 0) (i 1) c'))
    (hk : ∀ (t : Fin 2048) (c' : Fin 768), x1 (ix3 (0 : Fin 1) t c') = k (ix3 (i 0) t c'))
    (hv : ∀ (t : Fin 2048) (c' : Fin 768), x2 (ix3 (0 : Fin 1) t c') = v (ix3 (i 0) t c'))
    (hc : j 2 = i 2) : blockOut x0 x1 x2 j = Cert.Attention.out q k v i := by
  unfold blockOut Cert.Attention.out
  rw [hc]
  exact congr (congr (congrArg Cert.Attention.attend (funext fun d => hq _)) (funext fun t => funext fun d => hk t _))
    (funext fun t => hv t _)

/-- The printed index maps, decided over the eight grid points: the query window moves with the output
    window, the key and value windows follow its batch coordinate only, and no window moves along columns. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) ≤ 1 ∧ win0_3.index t (1 : Fin 3) ≤ 3 :=
  (by decide +kernel : ∀ t : Fin grid0.N, _)

/-- Every block of the result is some point's. -/
theorem idx_onto : ∀ (q0 : Fin 2) (q1 : Fin 4), ∃ t : Fin cfg0.N, win0_3.index t = ![q0.val, q1.val, 0] :=
  (by decide +kernel : ∀ (q0 : Fin 2) (q1 : Fin 4), ∃ t : Fin grid0.N, win0_3.index t = ![q0.val, q1.val, 0])

/-- The result array as one function of the argument arrays. -/
abbrev result (c : Dev nD) : S2x2048x768.Idx → EReal :=
  Cert.Attention.out (m ((c : Thread nD τ).loc main_arg0)) (m ((c : Thread nD τ).loc main_arg1)) (m ((c : Thread nD τ).loc main_arg2))

/-- What point t writes back is block t of the attention function of the argument arrays. -/
theorem flushed_eq (c : Dev nD) (t : Fin cfg0.N) :
    (dats m 0 c).flushed 3 t = ((cfg0.win 3).blk t).view.read (Elt Ideal) (result m c) := by
  rw [Cert.KernelIdeal.Value.flushed3, out_block]
  obtain ⟨e00, e01, e02, e10, e11, e12, e20, e21, e22, e32, b0, b1⟩ := idx_facts t
  funext j
  have hj0 : (j 0).val < 1 := (j 0).isLt
  have hj1 : (j 1).val < 512 := (j 1).isLt
  have hj2 : (j 2).val < 768 := (j 2).isLt
  show blockOut (iblk m c 0 t) (iblk m c 1 t) (iblk m c 2 t) j = result m c (((cfg0.win 3).blk t).view.emb j)
  refine blockOut_eq_out _ _ _ (iblk m c 0 t) (iblk m c 1 t) (iblk m c 2 t) j _ (fun c' => ?_) (fun t' c' => ?_) (fun t' c' => ?_) ?_
  · show V m c main_arg0 (((cfg0.win 0).blk t).view.emb (ix3 (0 : Fin 1) (j 1) c')) = _
    refine congrArg (V m c main_arg0) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 512 + 1 * (j 1).val = win0_3.index t (1 : Fin 3) * 512 + 1 * (j 1).val; omega
    | ⟨2, _⟩ => show win0_0.index t (2 : Fin 3) * 768 + 1 * c'.val = c'.val; omega
  · show V m c main_arg1 (((cfg0.win 1).blk t).view.emb (ix3 (0 : Fin 1) t' c')) = _
    refine congrArg (V m c main_arg1) (funext fun a => Fin.ext ?_)
    match a with
    | ⟨0, _⟩ => show win0_1.index t (0 : Fin 3) * 1 + 1 * 0 = win0_3.index t (0 : Fin 3) * 1 + 1 * (j 0).val; omega
    | ⟨1, _⟩ => show win0_1.index t (1 : Fin 3) * 2048 + 1 * t'.val = t'.val; omega
    | ⟨2, _⟩ => show win0_1.index t (2 : Fin 3) * 768 + 1 * c'.val = c'.val; omega
  · show V m c main_arg2 (((cfg0.win 2).blk t).view.emb (ix3 (0 : Fin 1) t' c')) = _
    refine congrArg (V m c main_arg2) (funext fun a => Fin.ext ?_)
    match a with
    | ⟨0, _⟩ => show win0_2.index t (0 : Fin 3) * 1 + 1 * 0 = win0_3.index t (0 : Fin 3) * 1 + 1 * (j 0).val; omega
    | ⟨1, _⟩ => show win0_2.index t (1 : Fin 3) * 2048 + 1 * t'.val = t'.val; omega
    | ⟨2, _⟩ => show win0_2.index t (2 : Fin 3) * 768 + 1 * c'.val = c'.val; omega
  · exact Fin.ext (by show (j 2).val = win0_3.index t (2 : Fin 3) * 768 + 1 * (j 2).val; omega)

/-- An index of the array is in point t's block iff each coordinate is in the block's range on its axis. -/
theorem mem_blk (t : Fin cfg0.N) (i : S2x2048x768.Idx) :
    i ∈ ((cfg0.win 3).blk t).view.set ↔ ∀ a : Fin 3, win0_3.index t a * S1x512x768.size a ≤ (i a).val
      ∧ (i a).val < win0_3.index t a * S1x512x768.size a + S1x512x768.size a := by
  show i ∈ ((View.whole main_v0).slice (win0_3.rect t)).set ↔ _
  rw [View.set_slice_whole, Rect.mem_set_unit]
  exact Iff.rfl

/-- Every index of the array is in some point's block: batch i₀, row block i₁ / 512. -/
theorem cover (i : S2x2048x768.Idx) :
    ∃ t : Fin cfg0.N, (cfg0.win 3).flush t = true ∧ i ∈ ((cfg0.win 3).blk t).view.set := by
  have h0 : (i 0).val < 2 := (i 0).isLt
  have h1 : (i 1).val < 2048 := (i 1).isLt
  have h2 : (i 2).val < 768 := (i 2).isLt
  obtain ⟨t, ht⟩ := idx_onto ⟨(i 0).val, h0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 768 ≤ (i 2).val ∧ (i 2).val < win0_3.index t (2 : Fin 3) * 768 + 768; omega

/-- So the result array ends holding the attention function of the argument arrays. -/
theorem final (c : Dev nD) : (dats m 0 c).arrAt 3 cfg0.N = result m c :=
  (dats m 0 c).arrAt_eq_of_cover 3 (result m c) (fun t _ => flushed_eq m c t) cover

/-- The kernel's run: it ends with the result array at the attention function of the argument arrays, which
    are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelArray

end
-- ==== Proof.ReferenceValue.lean ====
/-
  The reference program's result, read index by index, is the attention function of the specification.

  The program rearranges each argument [batch, row, head·64 + column] into [batch, head, row, column], takes
  the heads' score matrices, their row-wise softmax (shifted by the row maximum), the weighted sums of the
  value rows, and rearranges back. Read at output index (b, s, c) with head h = c / 64 this is
  ∑ t, w t * v[b, t, c] with w the softmax weights of the scores of query row s of head h.
-/
import proofs.«166572_g74105365725242_cont_9to1_m_705_2_alg».proof.Proof.Gen.ReferenceIdeal.Read
import proofs.«166572_g74105365725242_cont_9to1_m_705_2_alg».proof.Proof.Attention
import Mathlib.Data.Finset.Fold

noncomputable section

namespace Cert.ReferenceValue

open Cert.ReferenceIdeal Cert.ReferenceIdeal.Gen Cert.ReferenceIdeal.Read Idealize.ShloMosaic Idealize.ShloMosaic.ValueIdx Cert.Attention

/-- The type of the three argument arrays. -/
abbrev Arg : Type := (⟨S2x2048x768, .f32⟩ : BufTy).Contents (Elt Ideal)

/-- Feature column `d` of head `n`. -/
def col (n : Fin 12) (d : Fin 64) : Fin 768 := ⟨n.val * 64 + d.val, by have := n.isLt; have := d.isLt; omega⟩

/-! ## The rearranged arguments read the arrays at [batch, row, head·64 + column] -/

/-- The first argument, reshaped and transposed to [batch, head, row, column], at (b, n, s, d). -/
theorem split_q (x : Arg) (b : Fin 2) (n : Fin 12) (s : Fin 2048) (d : Fin 64) :
    val_main_v1 (F := Ideal) x (ix4 b n s d) = x (ix3 b s (col n d)) := by
  rw [val_main_v1_apply, val_main_v0_apply]
  refine congrArg x (funext fun a => Fin.ext ?_)
  have hb := b.isLt; have hn := n.isLt; have hs := s.isLt; have hd := d.isLt
  match a with
  | ⟨0, _⟩ => show (((b.val * 2048 + s.val) * 12 + n.val) * 64 + d.val) / 1572864 = b.val; omega
  | ⟨1, _⟩ => show (((b.val * 2048 + s.val) * 12 + n.val) * 64 + d.val) / 768 % 2048 = s.val; omega
  | ⟨2, _⟩ => show (((b.val * 2048 + s.val) * 12 + n.val) * 64 + d.val) % 768 = n.val * 64 + d.val; omega

/-- The second argument likewise. -/
theorem split_k (x : Arg) (b : Fin 2) (n : Fin 12) (s : Fin 2048) (d : Fin 64) :
    val_main_v3 (F := Ideal) x (ix4 b n s d) = x (ix3 b s (col n d)) := split_q x b n s d

/-- The third argument likewise. -/
theorem split_v (x : Arg) (b : Fin 2) (n : Fin 12) (s : Fin 2048) (d : Fin 64) :
    val_main_v5 (F := Ideal) x (ix4 b n s d) = x (ix3 b s (col n d)) := split_q x b n s d

/-! ## The scores -/

/-- The score row of batch `b`, head `n`, query row `s`. -/
def sc (q k : Arg) (b : Fin 2) (n : Fin 12) (s : Fin 2048) : Fin 2048 → EReal :=
  score (fun d => q (ix3 b s (col n d))) (fun t d => k (ix3 b t (col n d)))

/-- The scaled score matrix at (b, n, s, t). -/
theorem score_read (q k : Arg) (b : Fin 2) (n : Fin 12) (s t : Fin 2048) :
    val_main_v8 (F := Ideal) q k (ix4 b n s t) = sc q k b n s t := by
  rw [val_main_v8_apply, val_main_v6_apply, val_main_v7_apply, val_main_cst_apply]
  simp only [Ideal.mulf_def, Ideal.ofBits_def]
  unfold sc score
  refine congrArg (· * _) (Finset.sum_congr rfl fun d _ => ?_)
  rw [show lidx_main_v6 (ix4 b n s t) d = ix4 b n s d from
        funext fun a => Fin.ext (by match a with | ⟨0, _⟩ => rfl | ⟨1, _⟩ => rfl | ⟨2, _⟩ => rfl | ⟨3, _⟩ => rfl),
      show ridx_main_v6 (ix4 b n s t) d = ix4 b n t d from
        funext fun a => Fin.ext (by match a with | ⟨0, _⟩ => rfl | ⟨1, _⟩ => rfl | ⟨2, _⟩ => rfl | ⟨3, _⟩ => rfl),
      split_q, split_k]

/-! ## The row maximum -/

/-- A fold of `max` from `c` is at least `c`: taking `max` with `c` once more changes nothing. -/
theorem max_fold_max {ι : Type} (S : Finset ι) (c : EReal) (f : ι → EReal) :
    max c (S.fold max c f) = S.fold max c f :=
  max_eq_right ((Finset.le_fold_max c).2 (Or.inl le_rfl))

/-- The maximum-reduce over the last axis, at (b, n, s): the fold of `max` over that row from the initial pattern. -/
theorem max_reduce_read (y : S2x12x2048x2048.Idx → EReal) (b : Fin 2) (n : Fin 12) (s : Fin 2048) :
    Host.reduce (FloatOps.maximumf (F := Ideal) (φ := .f32)) y (val_main_cst_0 (F := Ideal))
        reducesTo_S2x12x2048x2048_S2x12x2048_d3 h_S_ (ix3 b n s)
      = (Finset.univ : Finset (Fin 2048)).fold max (Ideal.ofBits .f32 0xFF800000#32) (fun t => y (ix4 b n s t)) := by
  have h : Shape.Reduces S2x12x2048x2048 [3] S2x12x2048 := by decide
  refine (Host.reduce_eq_fold_single _ y _ reducesTo_S2x12x2048x2048_S2x12x2048_d3 h h_S_ (ix3 b n s)).trans ?_
  show (Finset.univ : Finset (Fin 2048)).fold max (Ideal.ofBits .f32 0xFF800000#32) (fun t => y (h.lift (ix3 b n s) t)) = _
  refine congrArg (fun g => (Finset.univ : Finset (Fin 2048)).fold max (Ideal.ofBits .f32 0xFF800000#32) g) (funext fun t => ?_)
  exact congrArg y (funext fun a => Fin.ext (by
    match a with | ⟨0, _⟩ => rfl | ⟨1, _⟩ => rfl | ⟨2, _⟩ => rfl | ⟨3, _⟩ => rfl))

/-- The row maximum the program subtracts, at (b, n, s). -/
theorem rowMax_read (q k : Arg) (b : Fin 2) (n : Fin 12) (s : Fin 2048) :
    val_main_v11 (F := Ideal) q k (ix3 b n s) = rowMax (sc q k b n s) := by
  rw [val_main_v11_apply, val_main_v10_apply, val_main_cst_1_apply]
  refine (congrArg (FloatOps.maximumf _) (max_reduce_read (val_main_v8 (F := Ideal) q k) b n s)).trans ?_
  simp only [score_read, Ideal.maximumf_def, Ideal.ofBits_def]
  exact max_fold_max _ _ _

/-! ## The softmax -/

/-- The shifted exponentials at (b, n, s, t). -/
theorem expo_read (q k : Arg) (b : Fin 2) (n : Fin 12) (s t : Fin 2048) :
    val_main_v15 (F := Ideal) q k (ix4 b n s t) = expo (sc q k b n s) t := by
  rw [val_main_v15_apply, val_main_v14_apply, val_main_v13_apply, val_main_v12_apply,
    show idx_main_v12 (idx_main_v13 (ix4 b n s t)) = ix3 b n s from
      funext fun a => Fin.ext (by match a with | ⟨0, _⟩ => rfl | ⟨1, _⟩ => rfl | ⟨2, _⟩ => rfl),
    score_read, rowMax_read]
  simp only [Ideal.hostUnary_exp_def, Ideal.subf_def]
  rfl

/-- Their row sums at (b, n, s): the reduce's initial value is zero. -/
theorem rowSum_read (q k : Arg) (b : Fin 2) (n : Fin 12) (s : Fin 2048) :
    val_main_v16 (F := Ideal) q k (ix3 b n s) = ∑ t : Fin 2048, expo (sc q k b n s) t := by
  rw [val_main_v16_apply, val_main_cst_2_apply]
  simp only [Ideal.ofBits_def, Ideal.ofBits_zero_f32, zero_add]
  refine Finset.sum_congr rfl fun t _ => ?_
  rw [show idx_main_v16 (ix3 b n s) t = ix4 b n s t from
        funext fun a => Fin.ext (by match a with | ⟨0, _⟩ => rfl | ⟨1, _⟩ => rfl | ⟨2, _⟩ => rfl | ⟨3, _⟩ => rfl),
      expo_read]

/-- The softmax weights at (b, n, s, t). -/
theorem weight_read (q k : Arg) (b : Fin 2) (n : Fin 12) (s t : Fin 2048) :
    val_main_v19 (F := Ideal) q k (ix4 b n s t) = weight (sc q k b n s) t := by
  rw [val_main_v19_apply, val_main_v18_apply, val_main_v17_apply,
    show idx_main_v17 (idx_main_v18 (ix4 b n s t)) = ix3 b n s from
      funext fun a => Fin.ext (by match a with | ⟨0, _⟩ => rfl | ⟨1, _⟩ => rfl | ⟨2, _⟩ => rfl),
    expo_read, rowSum_read]
  simp only [Ideal.hostDivf_def]
  rfl

/-! ## The weighted sums of the value rows -/

/-- The second product at (b, n, s, d). -/
theorem attend_read (q k v : Arg) (b : Fin 2) (n : Fin 12) (s : Fin 2048) (d : Fin 64) :
    val_main_v20 (F := Ideal) q k v (ix4 b n s d)
      = ∑ t : Fin 2048, weight (sc q k b n s) t * v (ix3 b t (col n d)) := by
  rw [val_main_v20_apply]
  refine Finset.sum_congr rfl fun t _ => ?_
  rw [show lidx_main_v20 (ix4 b n s d) t = ix4 b n s t from
        funext fun a => Fin.ext (by match a with | ⟨0, _⟩ => rfl | ⟨1, _⟩ => rfl | ⟨2, _⟩ => rfl | ⟨3, _⟩ => rfl),
      show ridx_main_v20 (ix4 b n s d) t = ix4 b n t d from
        funext fun a => Fin.ext (by match a with | ⟨0, _⟩ => rfl | ⟨1, _⟩ => rfl | ⟨2, _⟩ => rfl | ⟨3, _⟩ => rfl),
      weight_read, split_v]

/-! ## The result -/

/-- The reference's result is the attention function of its three arguments: at (b, s, c) the reshape and the
    transpose read the second product at (b, c / 64, s, c % 64), head c / 64's columns are `headCol c`, and
    column c / 64 * 64 + c % 64 is c. -/
theorem ref_eq_out (x0 x1 x2 : (⟨Cert.ReferenceIdeal.S2x2048x768, .f32⟩ : BufTy).Contents (Elt Ideal)) :
    Cert.ReferenceIdeal.Read.val_main_v22 (F := Ideal) x0 x1 x2 = Cert.Attention.out x0 x1 x2 := by
  funext i
  obtain ⟨b, s, c, rfl⟩ : ∃ (b : Fin 2) (s : Fin 2048) (c : Fin 768), i = ix3 b s c := ⟨i 0, i 1, i 2, eq_ix3 i⟩
  have hb := b.isLt; have hs := s.isLt; have hc := c.isLt
  rw [val_main_v22_apply, val_main_v21_apply,
    show idx_main_v21 (idx_main_v22 (ix3 b s c))
        = ix4 b (⟨c.val / 64, by omega⟩ : Fin 12) s (⟨c.val % 64, by omega⟩ : Fin 64) from
      funext fun a => Fin.ext (by
        match a with
        | ⟨0, _⟩ => show ((b.val * 2048 + s.val) * 768 + c.val) / 1572864 = b.val; omega
        | ⟨1, _⟩ => show ((b.val * 2048 + s.val) * 768 + c.val) / 64 % 12 = c.val / 64; omega
        | ⟨2, _⟩ => show ((b.val * 2048 + s.val) * 768 + c.val) / 768 % 2048 = s.val; omega
        | ⟨3, _⟩ => show ((b.val * 2048 + s.val) * 768 + c.val) % 64 = c.val % 64; omega),
    attend_read,
    show col (⟨c.val / 64, by omega⟩ : Fin 12) (⟨c.val % 64, by omega⟩ : Fin 64) = c from
      Fin.ext (by show c.val / 64 * 64 + c.val % 64 = c.val; omega)]
  rfl

end Cert.ReferenceValue

end
-- ==== Proof.lean ====
/-
  The kernel computes 12-head softmax attention over f32[2, 2048, 768] — for each head, the row-wise
  softmax of (Q Kᵀ) / 8 applied to V — one grid point per batch element and block of 512 query rows, each head
  on its 64-column slice of the loaded blocks. The reference rearranges the arrays to [batch, head, row, column],
  takes the same products and the same max-shifted softmax, and rearranges back.

  On the extended reals the two are one function of the arguments (Attention.lean, out): index by index
  both are ∑ t, w t · v[b, t, c] with w the softmax weights of the scores of query row s in the head of column c.
  The kernel's side: one head read at an index (KernelHead.lean), the twelve stored pieces assembled into the
  output block (KernelBlock.lean), and the eight blocks assembled into the array (KernelArray.lean), over the
  generated frame run. The reference's side: its run read operation by operation (ReferenceValue.lean); the one
  difference in its text, a maximum of the row maximum with -∞ once more, changes nothing. No step uses the
  finiteness of the inputs: only sums are re-indexed.

  The three frames are the generated frame runs; the idealization rewrote no operation, so there is nothing
  to preserve.
-/
import proofs.«166572_g74105365725242_cont_9to1_m_705_2_alg».proof.Defs
import proofs.«166572_g74105365725242_cont_9to1_m_705_2_alg».proof.Proof.Gen.Kernel
import proofs.«166572_g74105365725242_cont_9to1_m_705_2_alg».proof.Proof.Gen.Kernel.Skeleton
import proofs.«166572_g74105365725242_cont_9to1_m_705_2_alg».proof.Proof.Gen.Kernel.Launch
import proofs.«166572_g74105365725242_cont_9to1_m_705_2_alg».proof.Proof.Gen.Kernel.Points
import proofs.«166572_g74105365725242_cont_9to1_m_705_2_alg».proof.Proof.Gen.Kernel.Frame
import proofs.«166572_g74105365725242_cont_9to1_m_705_2_alg».proof.Proof.Gen.KernelIdeal
import proofs.«166572_g74105365725242_cont_9to1_m_705_2_alg».proof.Proof.Gen.KernelIdeal.Skeleton
import proofs.«166572_g74105365725242_cont_9to1_m_705_2_alg».proof.Proof.Gen.KernelIdeal.Launch
import proofs.«166572_g74105365725242_cont_9to1_m_705_2_alg».proof.Proof.Gen.KernelIdeal.Points
import proofs.«166572_g74105365725242_cont_9to1_m_705_2_alg».proof.Proof.Gen.KernelIdeal.Frame
import proofs.«166572_g74105365725242_cont_9to1_m_705_2_alg».proof.Proof.Gen.ReferenceIdeal
import proofs.«166572_g74105365725242_cont_9to1_m_705_2_alg».proof.Proof.Gen.Pre_finite_inputs
import proofs.«166572_g74105365725242_cont_9to1_m_705_2_alg».proof.Proof.Gen.KernelIdeal.Value
import proofs.«166572_g74105365725242_cont_9to1_m_705_2_alg».proof.Proof.Gen.ReferenceIdeal.Run
import proofs.«166572_g74105365725242_cont_9to1_m_705_2_alg».proof.Proof.Gen.ReferenceIdeal.Read
import proofs.«166572_g74105365725242_cont_9to1_m_705_2_alg».proof.Proof.KernelArray
import proofs.«166572_g74105365725242_cont_9to1_m_705_2_alg».proof.Proof.ReferenceValue
import Idealize.ShloMosaic.Adequacy
import Idealize.ShloMosaic.Init

noncomputable section

namespace Cert.Proof

open Idealize.ShloMosaic Idealize.SL.Sem

/-- The kernel as printed runs, its arguments unchanged. -/
theorem frame_kernel : Cert.frame_Kernel := fun m ρ _ => Cert.Kernel.Gen.frame m ρ

/-- The idealized kernel runs, its arguments unchanged. -/
theorem frame_kernelIdeal : Cert.frame_KernelIdeal := fun m ρ _ => Cert.KernelIdeal.Gen.frame m ρ

/-- The idealized reference runs, its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the attention function of the arguments in
    their result arrays: the kernel by its blocks, the reference by its operations read at an index. -/
theorem algebraic : Cert.algebraic_KernelIdeal_ReferenceIdeal := by
  intro m ρ m' ρ' _ hagree
  refine ⟨fun c => Cert.KernelArray.result m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceValue.ref_eq_out, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
